-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x64 : Shape := ⟨4, ![32, 128, 128, 64]⟩
abbrev S_ : Shape := ⟨0, ![]⟩

class Facts : Prop where
  bcast_S_S32x128x128x64 : S_.BroadcastsInDim S32x128x128x64 (![] : Fin 0 → Fin S32x128x128x64.rank)
  reducesTo_S32x128x128x64_S_d0_1_2_3 : S32x128x128x64.ReducesTo [0, 1, 2, 3] S_
  h_S_ : 0 < S_.numel

variable [Facts]

def fn {F : FTy → Type} [FloatOps F] (main_arg0 : FVec F S32x128x128x64 .f32) (main_arg1 : IVec S32x128x128x64 32) : IVec S_ 1 :=
  let main_v0 : FVec F S32x128x128x64 .f32 := Host.absf main_arg0
  let main_cst : FVec F S_ .f32 := constant S_ .f32 0x7F800000#32
  let main_v1 : FVec F S32x128x128x64 .f32 := broadcastInDim S32x128x128x64 ![] bcast_S_S32x128x128x64 main_cst
  let main_v2 : IVec S32x128x128x64 1 := cmpf .olt main_v0 main_v1
  let main_c : IVec S_ 1 := constantI S_ 1 1#1
  let main_v3 : IVec S_ 1 := (fun x v => Host.reduce IntOp.andi x v reducesTo_S32x128x128x64_S_d0_1_2_3 h_S_) main_v2 main_c
  main_v3
-- ==== Kernel.lean ====
abbrev S32x128x128x64 : Shape := ⟨4, ![32, 128, 128, 64]⟩
abbrev S32x256x256x64 : Shape := ⟨4, ![32, 256, 256, 64]⟩
abbrev S1x256x256x64 : Shape := ⟨4, ![1, 256, 256, 64]⟩
abbrev S33554432 : Shape := ⟨1, ![33554432]⟩
abbrev S134217728 : Shape := ⟨1, ![134217728]⟩
abbrev S_ : Shape := ⟨0, ![]⟩
abbrev S33554432x1 : Shape := ⟨2, ![33554432, 1]⟩

abbrev nBuf : Space → Nat
  | .hbm => 16
  | .vmem => 2
  | .smem => 0
  | _ => 0

abbrev bufTy : (tb : Table) → Fin (tcTables nBuf tb) → BufTy
  | .hbm, ⟨0, _⟩ => ⟨S32x128x128x64, .f32⟩
  | .hbm, ⟨1, _⟩ => ⟨S32x128x128x64, .i32⟩
  | .hbm, ⟨2, _⟩ => ⟨S32x256x256x64, .f32⟩
  | .hbm, ⟨3, _⟩ => ⟨S33554432, .i32⟩
  | .hbm, ⟨4, _⟩ => ⟨S33554432, .f32⟩
  | .hbm, ⟨5, _⟩ => ⟨S134217728, .f32⟩
  | .hbm, ⟨6, _⟩ => ⟨S_, .i32⟩
  | .hbm, ⟨7, _⟩ => ⟨S33554432, .i32⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S33554432, .i32⟩
  | .hbm, ⟨13, _⟩ => ⟨S33554432x1, .i32⟩
  | .hbm, ⟨14, _⟩ => ⟨S134217728, .f32⟩
  | .hbm, ⟨15, _⟩ => ⟨S32x256x256x64, .f32⟩
  | .local _ .vmem, ⟨0, _⟩ => ⟨S1x256x256x64, .f32⟩
  | .local _ .vmem, ⟨1, _⟩ => ⟨S1x256x256x64, .f32⟩
  | _, _ => ⟨S32x128x128x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S1x256x256x64_S1x256x256x64_0_0_0_0 : ∀ a, (![0, 0, 0, 0] : Fin 4 → Nat) a + S1x256x256x64.size a ≤ S1x256x256x64.size a
  h_S1x256x256x64 : 0 < S1x256x256x64.numel
  shapeCasts_S32x128x128x64_S33554432 : S32x128x128x64.ShapeCasts S33554432
  shapeCasts_S32x256x256x64_S134217728 : S32x256x256x64.ShapeCasts S134217728
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S134217728_S32x256x256x64 : S134217728.ShapeCasts S32x256x256x64
  scatter_S134217728_S33554432x1_S33554432_n_0_0_1_wf : ScatterDims.WF S134217728 S33554432x1 S33554432 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256x64.size a ≤ S32x256x256x64.size a
  hwx0_0 : ∀ i : grid0.Coords, EltTy.bits .f32 = 32 ∨ (Rect.block (s := S32x256x256x64) S1x256x256x64.size (cc0_transform_0 i) (hinb0_0 i)).WholeWords (EltTy.packing .f32)

variable [Facts₀]

def scatter_S134217728_S33554432x1_S33554432_n_0_0_1 : ScatterDims S134217728 S33554432x1 S33554432 where
  updateWindowDims := []
  insertedWindowDims := [0]
  scatterDimsToOperandDims := [0]
  indexVectorDim := 1
  wf := scatter_S134217728_S33554432x1_S33554432_n_0_0_1_wf

abbrev win0_0 : Pipeline.Window sig grid0 :=
  Pipeline.Window.ofSpec (Memref.whole main_v0) S1x256x256x64.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32x128x128x64 : Shape := ⟨4, ![32, 128, 128, 64]⟩
abbrev S_ : Shape := ⟨0, ![]⟩
abbrev S134217728 : Shape := ⟨1, ![134217728]⟩
abbrev S33554432 : Shape := ⟨1, ![33554432]⟩
abbrev S33554432x1 : Shape := ⟨2, ![33554432, 1]⟩
abbrev S32x256x256x64 : Shape := ⟨4, ![32, 256, 256, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x128x128x64, .f32⟩
  | .hbm, ⟨1, _⟩ => ⟨S32x128x128x64, .i32⟩
  | .hbm, ⟨2, _⟩ => ⟨S_, .f32⟩
  | .hbm, ⟨3, _⟩ => ⟨S134217728, .f32⟩
  | .hbm, ⟨4, _⟩ => ⟨S33554432, .i32⟩
  | .hbm, ⟨5, _⟩ => ⟨S33554432, .f32⟩
  | .hbm, ⟨6, _⟩ => ⟨S_, .i32⟩
  | .hbm, ⟨7, _⟩ => ⟨S33554432, .i32⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S33554432, .i32⟩
  | .hbm, ⟨13, _⟩ => ⟨S33554432x1, .i32⟩
  | .hbm, ⟨14, _⟩ => ⟨S134217728, .f32⟩
  | .hbm, ⟨15, _⟩ => ⟨S32x256x256x64, .f32⟩
  | _, _ => ⟨S32x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S134217728 : S_.BroadcastsInDim S134217728 (![] : Fin 0 → Fin S134217728.rank)
  shapeCasts_S32x128x128x64_S33554432 : S32x128x128x64.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S134217728_S32x256x256x64 : S134217728.ShapeCasts S32x256x256x64
  scatter_S134217728_S33554432x1_S33554432_n_0_0_1_wf : ScatterDims.WF S134217728 S33554432x1 S33554432 [] [0] [0] 1

variable [Facts₀]

def scatter_S134217728_S33554432x1_S33554432_n_0_0_1 : ScatterDims S134217728 S33554432x1 S33554432 where
  updateWindowDims := []
  insertedWindowDims := [0]
  scatterDimsToOperandDims := [0]
  indexVectorDim := 1
  wf := scatter_S134217728_S33554432x1_S33554432_n_0_0_1_wf

class Facts : Prop extends Facts₀ where

variable [Facts]
-- ==== Proof.Unpool.lean ====
/-
  Max-unpooling as ONE function of its arguments.

  The pooled values `x : [32, 128, 128, 64]` are laid out flat, and entry `k` of the flat list is ADDED into position
  `ind k` of a flat buffer of `32 · 256 · 256 · 64 = 134217728` entries (a negative position first moved up by the
  buffer's length, as jnp's indexing does; entries landing on one position are summed); the buffer is then read as
  `[32, 256, 256, 64]`. `scatterOnto` is that function with the buffer's starting contents `base` left free, so that
  the two programs compared here are both `scatterOnto` of the buffer of zeros: they differ only in how that buffer of
  zeros is produced.
-/
import Idealize.ShloMosaic.PureOps

noncomputable section

namespace Cert.Unpool

open Idealize.ShloMosaic

/-- The pooled values and their positions. -/
abbrev Pooled : Shape := ⟨4, ![32, 128, 128, 64]⟩
/-- The unpooled result. -/
abbrev Unpooled : Shape := ⟨4, ![32, 256, 256, 64]⟩
/-- The pooled values, flat. -/
abbrev FlatPooled : Shape := ⟨1, ![33554432]⟩
/-- The result buffer, flat. -/
abbrev FlatUnpooled : Shape := ⟨1, ![134217728]⟩
/-- The positions as a column of one-entry index vectors. -/
abbrev Column : Shape := ⟨2, ![33554432, 1]⟩
/-- A scalar. -/
abbrev Point : Shape := ⟨0, ![]⟩

variable {F : FTy → Type} [FloatOps F]

/-- The flat positions, a negative one moved up by the buffer's length `134217728`, as a column. -/
def positions (hflat : Pooled.ShapeCasts FlatPooled)
    (hsplat : Point.BroadcastsInDim FlatPooled (![] : Fin 0 → Fin FlatPooled.rank))
    (hcol : FlatPooled.BroadcastsInDim Column (![0] : Fin 1 → Fin Column.rank))
    (ind : IVec Pooled 32) : IVec Column 32 :=
  broadcastInDim Column ![0] hcol
    (select (cmpi .slt (shapeCast FlatPooled ind hflat) (broadcastInDim FlatPooled ![] hsplat (constantI Point 32 0#32)))
      (addi (shapeCast FlatPooled ind hflat) (broadcastInDim FlatPooled ![] hsplat (constantI Point 32 134217728#32)))
      (shapeCast FlatPooled ind hflat))

/-- The pooled values added into `base` at their positions, read as `[32, 256, 256, 64]`. -/
def scatterOnto (d : ScatterDims FlatUnpooled Column FlatPooled) (hflat : Pooled.ShapeCasts FlatPooled)
    (hsplat : Point.BroadcastsInDim FlatPooled (![] : Fin 0 → Fin FlatPooled.rank))
    (hcol : FlatPooled.BroadcastsInDim Column (![0] : Fin 1 → Fin Column.rank))
    (hun : FlatUnpooled.ShapeCasts Unpooled)
    (base : FVec F FlatUnpooled .f32) (x : FVec F Pooled .f32) (ind : IVec Pooled 32) : FVec F Unpooled .f32 :=
  shapeCast Unpooled (Host.scatterAdd d base (positions hflat hsplat hcol ind) (shapeCast FlatPooled x hflat)) hun

/-- The buffer of zeros both programs scatter into. -/
def zeros : FVec F FlatUnpooled .f32 := fun _ => Scalar.ofBits .f32 0x00000000#32

/-- A constant array stays that constant under any change of shape. -/
theorem shapeCast_const {α : Type} {s t : Shape} (h : s.ShapeCasts t) (z : α) :
    shapeCast t (fun _ : s.Idx => z) h = fun _ => z := rfl

/-- The dimension numbers of the scatter are data: two records with the same lists are the same record. -/
theorem scatterOnto_congr (d d' : ScatterDims FlatUnpooled Column FlatPooled)
    (h₁ : d.updateWindowDims = d'.updateWindowDims) (h₂ : d.insertedWindowDims = d'.insertedWindowDims)
    (h₃ : d.scatterDimsToOperandDims = d'.scatterDimsToOperandDims) (h₄ : d.indexVectorDim = d'.indexVectorDim)
    (hflat hflat' : Pooled.ShapeCasts FlatPooled)
    (hsplat hsplat' : Point.BroadcastsInDim FlatPooled (![] : Fin 0 → Fin FlatPooled.rank))
    (hcol hcol' : FlatPooled.BroadcastsInDim Column (![0] : Fin 1 → Fin Column.rank))
    (hun hun' : FlatUnpooled.ShapeCasts Unpooled)
    (base : FVec F FlatUnpooled .f32) (x : FVec F Pooled .f32) (ind : IVec Pooled 32) :
    scatterOnto d hflat hsplat hcol hun base x ind = scatterOnto d' hflat' hsplat' hcol' hun' base x ind := by
  obtain ⟨a, b, c, e, wf⟩ := d
  obtain ⟨a', b', c', e', wf'⟩ := d'
  dsimp only at h₁ h₂ h₃ h₄
  subst h₁ h₂ h₃ h₄
  rfl

end Cert.Unpool

end
-- ==== Proof.ZeroFill.lean ====
/-
  What the kernel program computes, at any float instance.

  The kernel region fills its output array `[32, 256, 256, 64]` with zeros: the grid has one point per batch entry, point
  `t` writes back the block `[1, 256, 256, 64]` at batch entry `t`, and what the body leaves in that block is the splat
  of the zero word. The 32 blocks tile the array, so after the region the array is zero everywhere. The host lines after
  the region flatten it and scatter-add the pooled values into it: the program's result is `Unpool.scatterOnto` of the
  zero buffer.
-/
import proofs.«175895_j10033043604222_1_alg».proof.Proof.KernelIdealFrame
import proofs.«175895_j10033043604222_1_alg».proof.Proof.Unpool
import Idealize.ShloMosaic.Lib.Pipeline.Value
import Idealize.ShloMosaic.Lib.StableHlo.Run

set_option maxRecDepth 16384

noncomputable section

namespace Cert.KernelIdeal.ZeroFill

open Idealize.ShloMosaic Idealize.ShloMosaic.TcCoe Idealize.SL.Sem
open Cert.KernelIdeal Cert.KernelIdeal.Gen Cert.KernelIdeal.GenP

variable {F : FTy → Type} [FloatOps F]
variable (m : (ℓ : Loc nD τ sig) → Buf (Elt F) ℓ) (ρ : Dev nD → PrngReg)

/-- The output array filled with the zero word. -/
abbrev zeroArr : S32x256x256x64.Idx → Elt F .f32 := fun _ => Scalar.ofBits .f32 0x00000000#32

theorem origin : (![0, 0, 0, 0] : Fin 4 → Nat) = fun _ => 0 := funext fun a => by fin_cases a <;> rfl

/-- The body's one store covers its whole block with the splat of the zero word. -/
theorem block_zero : out0_0 (F := F) = fun _ => Scalar.ofBits .f32 0x00000000#32 := by
  unfold out0_0
  rw [View.canon_unit_zero origin]
  rfl

/-- What point `t` writes back is its block of the all-zero array. -/
theorem flushed_zero (c : Dev nD) (t : Fin cfg0.N) :
    (dats m 0 c).flushed 0 t = ((cfg0.win 0).blk t).view.read (Elt F) (zeroArr (F := F)) := by
  show (cfg0.win 0).cut (grid0.coords t) ((dats m 0 c).after 0 t) = _
  rw [after0_0, block_zero]
  rfl

/-- Point `t`'s block index is `(t, 0, 0, 0)`. -/
theorem index_facts : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- An index of the array is in point `t`'s block iff each coordinate is in the block's range on its axis. -/
theorem mem_block (t : Fin cfg0.N) (i : S32x256x256x64.Idx) :
    i ∈ ((cfg0.win 0).blk t).view.set ↔ ∀ a : Fin 4, win0_0.index t a * S1x256x256x64.size a ≤ (i a).val
      ∧ (i a).val < win0_0.index t a * S1x256x256x64.size a + S1x256x256x64.size a := by
  show i ∈ ((View.whole main_v0).slice (win0_0.rect t)).set ↔ _
  rw [View.set_slice_whole, Rect.mem_set_unit]
  exact Iff.rfl

/-- Every index of the array lies in the block of the point named by its batch coordinate. -/
theorem covered (i : S32x256x256x64.Idx) :
    ∃ t : Fin cfg0.N, (cfg0.win 0).flush t = true ∧ i ∈ ((cfg0.win 0).blk t).view.set := by
  have h0 : (i 0).val < 32 := (i 0).isLt
  have h1 : (i 1).val < 256 := (i 1).isLt
  have h2 : (i 2).val < 256 := (i 2).isLt
  have h3 : (i 3).val < 64 := (i 3).isLt
  have hN : (i 0).val < cfg0.N := by rw [show cfg0.N = 32 from N_0]; exact h0
  obtain ⟨e0, e1, e2, e3⟩ := index_facts ⟨(i 0).val, hN⟩
  refine ⟨⟨(i 0).val, hN⟩, flush0_0 _, ?_⟩
  rw [mem_block]
  intro a
  match a with
  | ⟨0, _⟩ => show win0_0.index ⟨(i 0).val, hN⟩ (0 : Fin 4) * 1 ≤ (i 0).val ∧ (i 0).val < win0_0.index ⟨(i 0).val, hN⟩ (0 : Fin 4) * 1 + 1; simp only [] at e0; omega
  | ⟨1, _⟩ => show win0_0.index ⟨(i 0).val, hN⟩ (1 : Fin 4) * 256 ≤ (i 1).val ∧ (i 1).val < win0_0.index ⟨(i 0).val, hN⟩ (1 : Fin 4) * 256 + 256; omega
  | ⟨2, _⟩ => show win0_0.index ⟨(i 0).val, hN⟩ (2 : Fin 4) * 256 ≤ (i 2).val ∧ (i 2).val < win0_0.index ⟨(i 0).val, hN⟩ (2 : Fin 4) * 256 + 256; omega
  | ⟨3, _⟩ => show win0_0.index ⟨(i 0).val, hN⟩ (3 : Fin 4) * 64 ≤ (i 3).val ∧ (i 3).val < win0_0.index ⟨(i 0).val, hN⟩ (3 : Fin 4) * 64 + 64; omega

/-- After the region the output array is zero everywhere. -/
theorem final_zero (c : Dev nD) : (dats m 0 c).arrAt 0 cfg0.N = zeroArr (F := F) :=
  (dats m 0 c).arrAt_eq_of_cover 0 (zeroArr (F := F)) (fun t _ => flushed_zero m c t) covered

/-- When the host lines start, the output array holds zeros, -/
theorem entry_v0 (c : Dev nD) :
    Pipeline.withArrays (cfgs 0).spec c (V0 m c) (fun w => (dats m 0 c).arrAt w (cfgs 0).N) (Proc.devRef .tc main_v0)
      = zeroArr (F := F) :=
  (Pipeline.withArrays_arr spec0 launch0.win.arr_inj c _ _ 0).trans (final_zero m c)

/-- and the two argument arrays are as launched. -/
theorem entry_arg0 (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

theorem entry_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The program's result after the host lines that follow the region: they flatten the zero array, which stays zero, and
    scatter-add the flattened pooled values into it. -/
theorem tail_eq (c : Dev nD) :
    Pipeline.afterTail₀ cfgs (dats m) 0 (V0 m) [hostOps1] c main_v11
      = Cert.Unpool.scatterOnto scatter_S134217728_S33554432x1_S33554432_n_0_0_1 shapeCasts_S32x128x128x64_S33554432
          bcast_S_S33554432 bcast_S33554432_S33554432x1_0 shapeCasts_S134217728_S32x256x256x64
          (Cert.Unpool.zeros (F := F)) (m ((c : Thread nD τ).loc main_arg0)) (m ((c : Thread nD τ).loc main_arg1)) := by
  unfold Pipeline.afterTail₀
  show StableHlo.after hostOps1 _ (Proc.devRef .tc main_v11) = _
  after_results
  rw [entry_v0 m c, entry_arg0 m c, entry_arg1 m c]
  rfl

/-- The kernel program's run, its result named: every weakly fair execution terminates with the result array at the scatter
    onto the zero buffer and the arguments unchanged. -/
theorem run : θ_run defs (onTc (τ := τ) (main (F := F))) ⟨m, fun _ => 0, ρ⟩ fun r => ∀ c : Dev nD,
      r.2.mem ((c.tc : Thread nD τ).loc main_v11)
        = Cert.Unpool.scatterOnto scatter_S134217728_S33554432x1_S33554432_n_0_0_1 shapeCasts_S32x128x128x64_S33554432
            bcast_S_S33554432 bcast_S33554432_S33554432x1_0 shapeCasts_S134217728_S32x256x256x64
            (Cert.Unpool.zeros (F := F)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v11 (Pipeline.mem_restRefs_of main_v11 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ZeroFill

end
-- ==== Proof.RefUnpool.lean ====
/-
  What the reference program computes, at any float instance: it builds the flat buffer of zeros on the host (a splat of
  the zero constant), scatter-adds the pooled values into it at their positions and reads the buffer as
  `[32, 256, 256, 64]` — `Unpool.scatterOnto` of the zero buffer, with the reference's own dimension record.
-/
import proofs.«175895_j10033043604222_1_alg».proof.Proof.Gen.ReferenceIdeal.Run
import proofs.«175895_j10033043604222_1_alg».proof.Proof.Unpool

noncomputable section

namespace Cert.ReferenceIdeal.RefUnpool

open Idealize.ShloMosaic Idealize.ShloMosaic.TcCoe Idealize.SL.Sem
open Cert.ReferenceIdeal Cert.ReferenceIdeal.Gen

variable {F : FTy → Type} [FloatOps F]

/-- The reference's result term is the scatter onto the zero buffer: its splat of the zero constant is that buffer, and the
    rest of the term is `scatterOnto` spelt out. -/
theorem result_eq (x : FVec F S32x128x128x64 .f32) (ind : IVec S32x128x128x64 32) :
    shapeCast _ (Host.scatterAdd scatter_S134217728_S33554432x1_S33554432_n_0_0_1
        (broadcastInDim S134217728 ![] bcast_S_S134217728 (constant S_ .f32 0x00000000#32))
        (broadcastInDim S33554432x1 ![0] bcast_S33554432_S33554432x1_0
          (select (cmpi .slt (shapeCast _ ind shapeCasts_S32x128x128x64_S33554432) (broadcastInDim S33554432 ![] bcast_S_S33554432 (constantI S_ 32 0#32)))
            (addi (shapeCast _ ind shapeCasts_S32x128x128x64_S33554432) (broadcastInDim S33554432 ![] bcast_S_S33554432 (constantI S_ 32 134217728#32)))
            (shapeCast _ ind shapeCasts_S32x128x128x64_S33554432)))
        (shapeCast _ x shapeCasts_S32x128x128x64_S33554432)) shapeCasts_S134217728_S32x256x256x64
      = Cert.Unpool.scatterOnto scatter_S134217728_S33554432x1_S33554432_n_0_0_1 shapeCasts_S32x128x128x64_S33554432
          bcast_S_S33554432 bcast_S33554432_S33554432x1_0 shapeCasts_S134217728_S32x256x256x64
          (Cert.Unpool.zeros (F := F)) x ind := rfl

end Cert.ReferenceIdeal.RefUnpool

end
-- ==== Proof.lean ====
/-
  Max-unpooling by scatter-add: the kernel program against its jnp reference.

  Both programs add the pooled values `x : [32, 128, 128, 64]`, laid out flat, into a flat buffer of
  `32 · 256 · 256 · 64` zeros at the positions `ind` (a negative position moved up by the buffer's length; values meeting at
  one position summed) and read the buffer as `[32, 256, 256, 64]`. They differ only in where the zeros come from: the
  reference splats the zero constant on the host, the kernel program fills a `[32, 256, 256, 64]` array with zeros in a
  pallas_call of 32 grid points — point `t` writes the zero block `[1, 256, 256, 64]` at batch entry `t`, and the 32 blocks tile the
  array — and flattens it. A constant array is the same constant under any change of shape, so both results are
  `Unpool.scatterOnto` of one zero buffer, of the same flattened values, at the same positions: equal as they stand, at any
  float instance and for any positions whatever (no law of arithmetic is used, so nothing is asked of the inputs).

  * `Proof/Unpool.lean`: the function `scatterOnto`, the zero buffer, and that its dimension record is determined by its lists.
  * `Proof/ZeroFill.lean`: the region leaves the zero array (each point's block, the cover, the whole array), the host lines
    after it, and the kernel program's run with its result named.
  * `Proof/RefUnpool.lean`: the reference's result term is `scatterOnto` of the zero buffer.
  * The frames of the two kernel programs are their frame runs (`KernelFrame.lean`, `KernelIdealFrame.lean`); the reference's
    frame is its run with the result dropped. No operation of the kernel was rewritten by the idealization, so `preserves` is
    trivial.
-/
import proofs.«175895_j10033043604222_1_alg».proof.Defs
import proofs.«175895_j10033043604222_1_alg».proof.Proof.Gen.Kernel
import proofs.«175895_j10033043604222_1_alg».proof.Proof.Gen.Kernel.Skeleton
import proofs.«175895_j10033043604222_1_alg».proof.Proof.Gen.Kernel.Launch
import proofs.«175895_j10033043604222_1_alg».proof.Proof.Gen.Kernel.Points
import proofs.«175895_j10033043604222_1_alg».proof.Proof.KernelFrame
import proofs.«175895_j10033043604222_1_alg».proof.Proof.Gen.KernelIdeal
import proofs.«175895_j10033043604222_1_alg».proof.Proof.Gen.KernelIdeal.Skeleton
import proofs.«175895_j10033043604222_1_alg».proof.Proof.Gen.KernelIdeal.Launch
import proofs.«175895_j10033043604222_1_alg».proof.Proof.Gen.KernelIdeal.Points
import proofs.«175895_j10033043604222_1_alg».proof.Proof.KernelIdealFrame
import proofs.«175895_j10033043604222_1_alg».proof.Proof.Gen.ReferenceIdeal
import proofs.«175895_j10033043604222_1_alg».proof.Proof.Gen.ReferenceIdeal.Run
import proofs.«175895_j10033043604222_1_alg».proof.Proof.Gen.Pre_finite_inputs
import proofs.«175895_j10033043604222_1_alg».proof.Proof.Unpool
import proofs.«175895_j10033043604222_1_alg».proof.Proof.ZeroFill
import proofs.«175895_j10033043604222_1_alg».proof.Proof.RefUnpool
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The kernel program at the word level runs, and its arguments end unchanged. -/
theorem frame_kernel : Cert.frame_Kernel := fun m ρ _ => Cert.Kernel.GenP.frame m ρ

/-- The same of its idealization. -/
theorem frame_kernelIdeal : Cert.frame_KernelIdeal := fun m ρ _ => Cert.KernelIdeal.GenP.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the scatter of the same values, at the same positions, onto the same zero buffer. -/
theorem algebraic : Cert.algebraic_KernelIdeal_ReferenceIdeal := by
  intro m ρ m' ρ' _ hagree
  refine ⟨_, Cert.KernelIdeal.ZeroFill.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.RefUnpool.result_eq]
  exact Cert.Unpool.scatterOnto_congr _ _ rfl rfl rfl rfl _ _ _ _ _ _ _ _ _ _ _

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
